-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x768 : Shape := ⟨3, ![16, 512, 768]⟩
abbrev S20x768 : Shape := ⟨2, ![20, 768]⟩
abbrev S_ : Shape := ⟨0, ![]⟩

class Facts : Prop where
  bcast_S_S16x512x768 : S_.BroadcastsInDim S16x512x768 (![] : Fin 0 → Fin S16x512x768.rank)
  reducesTo_S16x512x768_S_d0_1_2 : S16x512x768.ReducesTo [0, 1, 2] S_
  h_S_ : 0 < S_.numel
  bcast_S_S20x768 : S_.BroadcastsInDim S20x768 (![] : Fin 0 → Fin S20x768.rank)
  reducesTo_S20x768_S_d0_1 : S20x768.ReducesTo [0, 1] S_

variable [Facts]

def fn {F : FTy → Type} [FloatOps F] (main_arg0 : FVec F S16x512x768 .f32) (main_arg1 : FVec F S16x512x768 .f32) (main_arg2 : FVec F S20x768 .f32) : IVec S_ 1 :=
  let main_v0 : FVec F S16x512x768 .f32 := Host.absf main_arg0
  let main_cst : FVec F S_ .f32 := constant S_ .f32 0x7F800000#32
  let main_v1 : FVec F S16x512x768 .f32 := broadcastInDim S16x512x768 ![] bcast_S_S16x512x768 main_cst
  let main_v2 : IVec S16x512x768 1 := cmpf .olt main_v0 main_v1
  let main_c : IVec S_ 1 := constantI S_ 1 1#1
  let main_v3 : IVec S_ 1 := (fun x v => Host.reduce IntOp.andi x v reducesTo_S16x512x768_S_d0_1_2 h_S_) main_v2 main_c
  let main_v4 : FVec F S16x512x768 .f32 := Host.absf main_arg1
  let main_cst_0 : FVec F S_ .f32 := constant S_ .f32 0x7F800000#32
  let main_v5 : FVec F S16x512x768 .f32 := broadcastInDim S16x512x768 ![] bcast_S_S16x512x768 main_cst_0
  let main_v6 : IVec S16x512x768 1 := cmpf .olt main_v4 main_v5
  let main_c_1 : IVec S_ 1 := constantI S_ 1 1#1
  let main_v7 : IVec S_ 1 := (fun x v => Host.reduce IntOp.andi x v reducesTo_S16x512x768_S_d0_1_2 h_S_) main_v6 main_c_1
  let main_v8 : IVec S_ 1 := andi main_v3 main_v7
  let main_v9 : FVec F S20x768 .f32 := Host.absf main_arg2
  let main_cst_2 : FVec F S_ .f32 := constant S_ .f32 0x7F800000#32
  let main_v10 : FVec F S20x768 .f32 := broadcastInDim S20x768 ![] bcast_S_S20x768 main_cst_2
  let main_v11 : IVec S20x768 1 := cmpf .olt main_v9 main_v10
  let main_c_3 : IVec S_ 1 := constantI S_ 1 1#1
  let main_v12 : IVec S_ 1 := (fun x v => Host.reduce IntOp.andi x v reducesTo_S20x768_S_d0_1 h_S_) main_v11 main_c_3
  let main_v13 : IVec S_ 1 := andi main_v8 main_v12
  main_v13
-- ==== Kernel.lean ====
abbrev S16x512x768 : Shape := ⟨3, ![16, 512, 768]⟩
abbrev S20x768 : Shape := ⟨2, ![20, 768]⟩
abbrev S8192x768 : Shape := ⟨2, ![8192, 768]⟩
abbrev S8192x20 : Shape := ⟨2, ![8192, 20]⟩
abbrev S1024x768 : Shape := ⟨2, ![1024, 768]⟩
abbrev S1024x20 : Shape := ⟨2, ![1024, 20]⟩
abbrev S16x512x20 : Shape := ⟨3, ![16, 512, 20]⟩

abbrev nBuf : Space → Nat
  | .hbm => 7
  | .vmem => 7
  | .smem => 0
  | _ => 0

abbrev bufTy : (tb : Table) → Fin (tcTables nBuf tb) → BufTy
  | .hbm, ⟨0, _⟩ => ⟨S16x512x768, .f32⟩
  | .hbm, ⟨1, _⟩ => ⟨S16x512x768, .f32⟩
  | .hbm, ⟨2, _⟩ => ⟨S20x768, .f32⟩
  | .hbm, ⟨3, _⟩ => ⟨S8192x768, .f32⟩
  | .hbm, ⟨4, _⟩ => ⟨S8192x768, .f32⟩
  | .hbm, ⟨5, _⟩ => ⟨S8192x20, .f32⟩
  | .hbm, ⟨6, _⟩ => ⟨S16x512x20, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S20x768, .f32⟩
  | .local _ .vmem, ⟨5, _⟩ => ⟨S1024x20, .f32⟩
  | .local _ .vmem, ⟨6, _⟩ => ⟨S1024x20, .f32⟩
  | _, _ => ⟨S16x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x768_S8192x768 : S16x512x768.ShapeCasts S8192x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S20x768_S20x768_0_0 : ∀ a, (![0, 0] : Fin 2 → Nat) a + S20x768.size a ≤ S20x768.size a
  h_S20x768 : 0 < S20x768.numel
  bitsLt_bf16_f32 : FTy.bits .bf16 < FTy.bits .f32
  inb_S1024x20_S1024x20_0_0 : ∀ a, (![0, 0] : Fin 2 → Nat) a + S1024x20.size a ≤ S1024x20.size a
  h_S1024x20 : 0 < S1024x20.numel
  shapeCasts_S8192x20_S16x512x20 : S8192x20.ShapeCasts S16x512x20
  dot_S1024x768_S20x768_S1024x20_1_1_0_0_n_n_wf : DotDims.WF S1024x768 S20x768 S1024x20 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x768.size a ≤ S20x768.size a
  hwx0_2 : ∀ i : grid0.Coords, EltTy.bits .f32 = 32 ∨ (Rect.block (s := S20x768) S20x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x20.size a ≤ S8192x20.size a
  hwx0_3 : ∀ i : grid0.Coords, EltTy.bits .f32 = 32 ∨ (Rect.block (s := S8192x20) S1024x20.size (cc0_transform_3 i) (hinb0_3 i)).WholeWords (EltTy.packing .f32)

variable [Facts₀]

def dot_S1024x768_S20x768_S1024x20_1_1_0_0_n_n : DotDims S1024x768 S20x768 S1024x20 where
  lhsContracting := [1]
  rhsContracting := [1]
  lhsNonContracting := [0]
  rhsNonContracting := [0]
  lhsBatch := []
  rhsBatch := []
  wf := dot_S1024x768_S20x768_S1024x20_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x768 : Shape := ⟨3, ![16, 512, 768]⟩
abbrev S20x768 : Shape := ⟨2, ![20, 768]⟩
abbrev S8192x768 : Shape := ⟨2, ![8192, 768]⟩
abbrev S8192x20 : Shape := ⟨2, ![8192, 20]⟩
abbrev S_ : Shape := ⟨0, ![]⟩
abbrev S16x512x20 : Shape := ⟨3, ![16, 512, 20]⟩

abbrev nBuf : Space → Nat
  | .hbm => 23
  | .vmem => 0
  | .smem => 0
  | _ => 0

abbrev bufTy : (tb : Table) → Fin (tcTables nBuf tb) → BufTy
  | .hbm, ⟨0, _⟩ => ⟨S16x512x768, .f32⟩
  | .hbm, ⟨1, _⟩ => ⟨S16x512x768, .f32⟩
  | .hbm, ⟨2, _⟩ => ⟨S20x768, .f32⟩
  | .hbm, ⟨3, _⟩ => ⟨S8192x768, .f32⟩
  | .hbm, ⟨4, _⟩ => ⟨S8192x768, .f32⟩
  | .hbm, ⟨5, _⟩ => ⟨S20x768, .f32⟩
  | .hbm, ⟨6, _⟩ => ⟨S8192x768, .f32⟩
  | .hbm, ⟨7, _⟩ => ⟨S8192x20, .f32⟩
  | .hbm, ⟨8, _⟩ => ⟨S8192x768, .f32⟩
  | .hbm, ⟨9, _⟩ => ⟨S8192x20, .f32⟩
  | .hbm, ⟨10, _⟩ => ⟨S8192x20, .f32⟩
  | .hbm, ⟨11, _⟩ => ⟨S8192x768, .f32⟩
  | .hbm, ⟨12, _⟩ => ⟨S8192x20, .f32⟩
  | .hbm, ⟨13, _⟩ => ⟨S8192x20, .f32⟩
  | .hbm, ⟨14, _⟩ => ⟨S_, .f32⟩
  | .hbm, ⟨15, _⟩ => ⟨S8192x20, .f32⟩
  | .hbm, ⟨16, _⟩ => ⟨S8192x20, .f32⟩
  | .hbm, ⟨17, _⟩ => ⟨S_, .f32⟩
  | .hbm, ⟨18, _⟩ => ⟨S8192x20, .f32⟩
  | .hbm, ⟨19, _⟩ => ⟨S8192x20, .f32⟩
  | .hbm, ⟨20, _⟩ => ⟨S8192x20, .f32⟩
  | .hbm, ⟨21, _⟩ => ⟨S8192x20, .f32⟩
  | .hbm, ⟨22, _⟩ => ⟨S16x512x20, .f32⟩
  | _, _ => ⟨S16x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S16x512x768_S8192x768 : S16x512x768.ShapeCasts S8192x768
  bcast_S_S8192x20 : S_.BroadcastsInDim S8192x20 (![] : Fin 0 → Fin S8192x20.rank)
  shapeCasts_S8192x20_S16x512x20 : S8192x20.ShapeCasts S16x512x20
  dot_S8192x768_S20x768_S8192x20_1_1_0_0_n_n_wf : DotDims.WF S8192x768 S20x768 S8192x20 [1] [1] [0] [0] [] []

variable [Facts₀]

def dot_S8192x768_S20x768_S8192x20_1_1_0_0_n_n : DotDims S8192x768 S20x768 S8192x20 where
  lhsContracting := [1]
  rhsContracting := [1]
  lhsNonContracting := [0]
  rhsNonContracting := [0]
  lhsBatch := []
  rhsBatch := []
  wf := dot_S8192x768_S20x768_S8192x20_1_1_0_0_n_n_wf

class Facts : Prop extends Facts₀ where

variable [Facts]
-- ==== Proof.CosSpec.lean ====
/-
  The function both programs compute, stated once over the extended reals.

  For a row `a` of the first operand, the matching row `b` of the second and a row `w` of the weight table (all of
  length 768), the weighted inner product is `⟨a, b⟩_w = Σ_d (a_d · b_d) · (w_d · w_d)`, and the multi-perspective cosine is
      cos_w(a, b) = ⟨a, b⟩_w / (max (√⟨a, a⟩_w) ε · max (√⟨b, b⟩_w) ε),
  with `ε` the single-precision number nearest 1e-8. Entry `(n, p)` of the result pairs row `n` of the two
  operands with row `p` of the weights. Nothing here depends on how many rows the operands have, so the same
  definition reads a 1024-row block and the whole 8192-row array.
-/
import Idealize.ShloMosaic.PureOps.Ideal
import Idealize.ShloMosaic.Lib.ValueIdx

noncomputable section

namespace Cert.CosSim

open Idealize.ShloMosaic Idealize.ShloMosaic.ValueIdx

/-- The floor under each norm: the single-precision value nearest `1e-8`, kept as its word (both programs carry the same word). -/
def eps : EReal := Ideal.ofBits .f32 0x322BCC77#32

/-- The weighted inner product `Σ_d (a_d · b_d) · (w_d · w_d)` of two rows under the squared weights. -/
def wdot (a b w : Fin 768 → EReal) : EReal := ∑ d : Fin 768, (a d * b d) * (w d * w d)

/-- The weighted cosine of two rows: their weighted inner product over the product of their floored weighted norms. -/
def cosRow (a b w : Fin 768 → EReal) : EReal :=
  Ideal.div (wdot a b w) (max (Ideal.sqrt (wdot a a w)) eps * max (Ideal.sqrt (wdot b b w)) eps)

/-- The whole result over `R` rows: entry `(n, p)` is the weighted cosine of row `n` of `a` and of `b` under row `p` of `w`. -/
def cosArr {R : Nat} (a b : (⟨2, ![R, 768]⟩ : Shape).Idx → EReal) (w : (⟨2, ![20, 768]⟩ : Shape).Idx → EReal) :
    (⟨2, ![R, 20]⟩ : Shape).Idx → EReal :=
  fun i => cosRow (fun d => a (ix2 (i 0) d)) (fun d => b (ix2 (i 0) d)) (fun d => w (ix2 (i 1) d))

theorem cosArr_ix2 {R : Nat} (a b : (⟨2, ![R, 768]⟩ : Shape).Idx → EReal) (w : (⟨2, ![20, 768]⟩ : Shape).Idx → EReal)
    (n : Fin R) (p : Fin 20) :
    cosArr a b w (ix2 n p) = cosRow (fun d => a (ix2 n d)) (fun d => b (ix2 n d)) (fun d => w (ix2 p d)) := rfl

/-- The result in the operands' own layout: flatten the two [16, 512, 768] operands to 8192 rows, take the weighted cosine,
    fold the 8192 × 20 result back to [16, 512, 20]. The two changes of shape only rename indices. -/
def cosFull (hflat : (⟨3, ![16, 512, 768]⟩ : Shape).ShapeCasts ⟨2, ![8192, 768]⟩)
    (hfold : (⟨2, ![8192, 20]⟩ : Shape).ShapeCasts ⟨3, ![16, 512, 20]⟩)
    (a b : (⟨3, ![16, 512, 768]⟩ : Shape).Idx → EReal) (w : (⟨2, ![20, 768]⟩ : Shape).Idx → EReal) :
    (⟨3, ![16, 512, 20]⟩ : Shape).Idx → EReal :=
  shapeCast ⟨3, ![16, 512, 20]⟩ (cosArr (R := 8192) (shapeCast ⟨2, ![8192, 768]⟩ a hflat) (shapeCast ⟨2, ![8192, 768]⟩ b hflat) w) hfold

end Cert.CosSim

end
-- ==== Proof.CosBlock.lean ====
/-
  One grid step of the kernel, read over the extended reals.

  The body multiplies its two 1024-row blocks elementwise (r·m, r·r, m·m), squares the weight table, contracts each
  product with the squared weights along the 768 columns, takes square roots of the two self-products, floors them
  at ε, multiplies and divides. Read exactly, the narrowing of the products to the matrix unit's input format is the identity and a
  contraction into a zero accumulator is the plain sum, so what the step stores is the weighted cosine `cosArr`
  of its three blocks.
-/
import proofs.«410744_j1580547972833_3_alg».proof.Proof.Gen.KernelIdeal.Skeleton
import proofs.«410744_j1580547972833_3_alg».proof.Proof.CosSpec
import Idealize.ShloMosaic.Lib.Pipeline.Value
import Idealize.ShloMosaic.Lib.ValueIdx
import Idealize.ShloMosaic.PureOps.Ideal.Laws

noncomputable section

namespace Cert.KernelIdeal.CosBlock

open Cert.KernelIdeal Cert.KernelIdeal.Gen Idealize.ShloMosaic Idealize.ShloMosaic.ValueIdx Cert.CosSim

/-- The contraction's left operand is read at the output's row; -/
theorem lhs_row (i : S1024x20.Idx) (q : dot_S1024x768_S20x768_S1024x20_1_1_0_0_n_n.contr.Idx) :
    (dot_S1024x768_S20x768_S1024x20_1_1_0_0_n_n.lhsIdx i q 0).val = (i 0).val := by
  unfold DotDims.lhsIdx
  rw [dif_neg (show ¬(0 : Fin S1024x768.rank) ∈ dot_S1024x768_S20x768_S1024x20_1_1_0_0_n_n.lhsBatch by decide), dif_pos (show (0 : Fin S1024x768.rank) ∈ dot_S1024x768_S20x768_S1024x20_1_1_0_0_n_n.lhsNonContracting by decide)]
  rfl
/-- and at the contracted column. -/
theorem lhs_col (i : S1024x20.Idx) (q : dot_S1024x768_S20x768_S1024x20_1_1_0_0_n_n.contr.Idx) :
    (dot_S1024x768_S20x768_S1024x20_1_1_0_0_n_n.lhsIdx i q 1).val = (q ⟨0, by decide⟩).val :=
  dot_S1024x768_S20x768_S1024x20_1_1_0_0_n_n.lhsIdx_val_of_single rfl i q
/-- The right operand (the weights) is read at the row the output's column names; -/
theorem rhs_row (i : S1024x20.Idx) (q : dot_S1024x768_S20x768_S1024x20_1_1_0_0_n_n.contr.Idx) :
    (dot_S1024x768_S20x768_S1024x20_1_1_0_0_n_n.rhsIdx i q 0).val = (i 1).val := by
  unfold DotDims.rhsIdx
  rw [dif_neg (show ¬(0 : Fin S20x768.rank) ∈ dot_S1024x768_S20x768_S1024x20_1_1_0_0_n_n.rhsBatch by decide), dif_pos (show (0 : Fin S20x768.rank) ∈ dot_S1024x768_S20x768_S1024x20_1_1_0_0_n_n.rhsNonContracting by decide)]
  rfl
/-- and at the contracted column. -/
theorem rhs_col (i : S1024x20.Idx) (q : dot_S1024x768_S20x768_S1024x20_1_1_0_0_n_n.contr.Idx) :
    (dot_S1024x768_S20x768_S1024x20_1_1_0_0_n_n.rhsIdx i q 1).val = (q ⟨0, by decide⟩).val :=
  dot_S1024x768_S20x768_S1024x20_1_1_0_0_n_n.rhsIdx_val_of_single rfl i q

/-- The matrix product into a zero accumulator, at entry `(y, p)`: the sum over the 768 columns of the left
    operand's row `y` times the right operand's row `p`. -/
theorem contract_rows {φ₁ φ₂ : FTy} (l : FVec Ideal S1024x768 φ₁) (r : FVec Ideal S20x768 φ₂) (y : Fin 1024) (p : Fin 20) :
    matmul dot_S1024x768_S20x768_S1024x20_1_1_0_0_n_n none l r (constant (F := Ideal) S1024x20 .f32 0x00000000#32) (ix2 y p)
      = ∑ k : Fin 768, l (ix2 y k) * r (ix2 p k) := by
  simp only [matmul]
  rw [Ideal.matmul_constant_zero_apply, ← Equiv.sum_comp (contrEquiv1 dot_S1024x768_S20x768_S1024x20_1_1_0_0_n_n 768 rfl rfl).symm]
  refine Finset.sum_congr rfl fun k _ => ?_
  have hk := contrEquiv1_symm_val dot_S1024x768_S20x768_S1024x20_1_1_0_0_n_n 768 rfl rfl k
  have el : dot_S1024x768_S20x768_S1024x20_1_1_0_0_n_n.lhsIdx (ix2 y p) ((contrEquiv1 dot_S1024x768_S20x768_S1024x20_1_1_0_0_n_n 768 rfl rfl).symm k) = ix2 y k := funext fun a => Fin.ext (by
    match a with
    | ⟨0, _⟩ => exact lhs_row _ _
    | ⟨1, _⟩ => exact (lhs_col _ _).trans hk)
  have er : dot_S1024x768_S20x768_S1024x20_1_1_0_0_n_n.rhsIdx (ix2 y p) ((contrEquiv1 dot_S1024x768_S20x768_S1024x20_1_1_0_0_n_n 768 rfl rfl).symm k) = ix2 p k := funext fun a => Fin.ext (by
    match a with
    | ⟨0, _⟩ => exact rhs_row _ _
    | ⟨1, _⟩ => exact (rhs_col _ _).trans hk)
  rw [el, er]

/-- What one grid step stores is the weighted cosine of its three blocks, entry by entry. -/
theorem pay_eq (x0 x1 : Vec Ideal S1024x768 .f32) (x2 : Vec Ideal S20x768 .f32) :
    k0_pay1 (F := Ideal) x0 x1 x2 = cosArr (R := 1024) x0 x1 x2 := by
  funext j
  obtain ⟨y, p, rfl⟩ : ∃ (y : Fin 1024) (p : Fin 20), j = ix2 y p := ⟨j 0, j 1, eq_ix2 j⟩
  unfold k0_pay1
  simp only [shapeCast_self]
  rw [cosArr_ix2]
  show Ideal.div (matmul (F := Ideal) dot_S1024x768_S20x768_S1024x20_1_1_0_0_n_n none _ _ _ (ix2 y p))
      (max (Ideal.sqrt (matmul (F := Ideal) dot_S1024x768_S20x768_S1024x20_1_1_0_0_n_n none _ _ _ (ix2 y p))) eps
        * max (Ideal.sqrt (matmul (F := Ideal) dot_S1024x768_S20x768_S1024x20_1_1_0_0_n_n none _ _ _ (ix2 y p))) eps) = _
  rw [contract_rows, contract_rows, contract_rows]
  rfl

end Cert.KernelIdeal.CosBlock

end
-- ==== Proof.CosRun.lean ====
/-
  The kernel's whole run, read over the extended reals.

  The 8192 rows are cut into eight blocks of 1024; grid step `t` reads rows `1024·t … 1024·t + 1023` of the two
  flattened operands and the whole weight table, and writes the same rows of the 8192 × 20 result. Entry `(n, p)`
  of the result depends only on row `n` of the operands and row `p` of the weights, so each written block is a
  block of ONE function of the whole arrays — the weighted cosine `cosArr` — and the eight blocks tile the result.
  Around the steps, the operands are flattened from [16, 512, 768] to [8192, 768] and the result is folded back to
  [16, 512, 20]; both are changes of shape only.
-/
import proofs.«410744_j1580547972833_3_alg».proof.Proof.Gen.KernelIdeal.Frame
import proofs.«410744_j1580547972833_3_alg».proof.Proof.CosBlock
import Idealize.ShloMosaic.Lib.Pipeline.Value
import Idealize.ShloMosaic.Lib.ValueIdx
import Idealize.ShloMosaic.Lib.StableHlo.Run

set_option maxRecDepth 16384

noncomputable section

namespace Cert.KernelIdeal.CosRun

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.CosSim

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at step `t`: the operands' and the result's blocks at block-row `t`, the
    weights' block always the whole table. Decided over the eight steps. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Step `t`'s block of the first operand is rows `1024·t …` of the flattened array. -/
theorem blk0_apply (c : Dev nD) (t : Fin cfg0.N) (y : Fin 1024) (d : Fin 768) (n : Fin 8192) (hn : n.val = 1024 * t.val + y.val) :
    (iblk m c 0 t : Vec Ideal S1024x768 .f32) (ix2 y d) = (V m c main_v0 : S8192x768.Idx → EReal) (ix2 n d) := by
  obtain ⟨e0, e1, -⟩ := idx_facts t
  unfold iblk
  show V m c main_v0 _ = V m c main_v0 _
  congr 1
  funext a; apply Fin.ext
  match a with
  | ⟨0, _⟩ => show win0_0.index t (0 : Fin 2) * 1024 + 1 * y.val = n.val; rw [e0, hn]; omega
  | ⟨1, _⟩ => show win0_0.index t (1 : Fin 2) * 768 + 1 * d.val = d.val; rw [e1]; omega

/-- The same rows of the second operand. -/
theorem blk1_apply (c : Dev nD) (t : Fin cfg0.N) (y : Fin 1024) (d : Fin 768) (n : Fin 8192) (hn : n.val = 1024 * t.val + y.val) :
    (iblk m c 1 t : Vec Ideal S1024x768 .f32) (ix2 y d) = (V m c main_v1 : S8192x768.Idx → EReal) (ix2 n d) := by
  obtain ⟨-, -, e2, e3, -⟩ := idx_facts t
  unfold iblk
  show V m c main_v1 _ = V m c main_v1 _
  congr 1
  funext a; apply Fin.ext
  match a with
  | ⟨0, _⟩ => show win0_1.index t (0 : Fin 2) * 1024 + 1 * y.val = n.val; rw [e2, hn]; omega
  | ⟨1, _⟩ => show win0_1.index t (1 : Fin 2) * 768 + 1 * d.val = d.val; rw [e3]; omega

/-- The weights' block is the whole table at every step. -/
theorem blk2_apply (c : Dev nD) (t : Fin cfg0.N) (p : Fin 20) (d : Fin 768) :
    (iblk m c 2 t : Vec Ideal S20x768 .f32) (ix2 p d) = (V m c main_arg2 : S20x768.Idx → EReal) (ix2 p d) := by
  obtain ⟨-, -, -, -, e4, e5, -⟩ := idx_facts t
  unfold iblk
  show V m c main_arg2 _ = V m c main_arg2 _
  congr 1
  funext a; apply Fin.ext
  match a with
  | ⟨0, _⟩ => show win0_2.index t (0 : Fin 2) * 20 + 1 * p.val = p.val; rw [e4]; omega
  | ⟨1, _⟩ => show win0_2.index t (1 : Fin 2) * 768 + 1 * d.val = d.val; rw [e5]; omega

/-- What step `t` writes back is block `t` of the weighted cosine of the whole arrays. -/
theorem flushed_eq (c : Dev nD) (t : Fin cfg0.N) :
    (dats m 0 c).flushed 3 t = ((cfg0.win 3).blk t).view.read (Elt Ideal)
      (cosArr (R := 8192) (V m c main_v0) (V m c main_v1) (V m c main_arg2)) := by
  show (cfg0.win 3).cut (grid0.coords t) ((dats m 0 c).after 3 t) = _
  rw [after0_3]
  unfold out0_3
  rw [View.canon_unit_zero hz]
  simp only [View.ld_unit_zero (S := S1024x768) hz, View.ld_unit_zero (S := S20x768) hz]
  rw [CosBlock.pay_eq]
  obtain ⟨-, -, -, -, -, -, e6, e7⟩ := idx_facts t
  have ht : t.val < 8 := Nat.lt_of_lt_of_eq t.isLt (show cfg0.N = 8 from N_0)
  funext j
  obtain ⟨y, p, rfl⟩ : ∃ (y : Fin 1024) (p : Fin 20), j = ix2 y p := ⟨j 0, j 1, eq_ix2 j⟩
  show cosArr (R := 1024) (iblk m c 0 t) (iblk m c 1 t) (iblk m c 2 t) (ix2 y p)
    = cosArr (R := 8192) (V m c main_v0) (V m c main_v1) (V m c main_arg2) (((cfg0.win 3).blk t).view.emb (ix2 y p))
  have hi : ((cfg0.win 3).blk t).view.emb (ix2 y p) = ix2 (⟨1024 * t.val + y.val, by omega⟩ : Fin 8192) p := by
    funext a; apply Fin.ext
    match a with
    | ⟨0, _⟩ => show win0_3.index t (0 : Fin 2) * 1024 + 1 * y.val = 1024 * t.val + y.val; rw [e6]; omega
    | ⟨1, _⟩ => show win0_3.index t (1 : Fin 2) * 20 + 1 * p.val = p.val; rw [e7]; omega
  rw [hi, cosArr_ix2, cosArr_ix2]
  have h0 : ∀ d : Fin 768, (iblk m c 0 t : Vec Ideal S1024x768 .f32) (ix2 y d) = (V m c main_v0 : S8192x768.Idx → EReal) (ix2 (⟨1024 * t.val + y.val, by omega⟩ : Fin 8192) d) :=
    fun d => blk0_apply m c t y d _ rfl
  have h1 : ∀ d : Fin 768, (iblk m c 1 t : Vec Ideal S1024x768 .f32) (ix2 y d) = (V m c main_v1 : S8192x768.Idx → EReal) (ix2 (⟨1024 * t.val + y.val, by omega⟩ : Fin 8192) d) :=
    fun d => blk1_apply m c t y d _ rfl
  have h2 : ∀ d : Fin 768, (iblk m c 2 t : Vec Ideal S20x768 .f32) (ix2 p d) = (V m c main_arg2 : S20x768.Idx → EReal) (ix2 p d) :=
    fun d => blk2_apply m c t p d
  simp only [h0, h1, h2]

/-- An index of the result lies in step `t`'s block iff each coordinate lies in the block's range. -/
theorem mem_blk (t : Fin cfg0.N) (i : S8192x20.Idx) :
    i ∈ ((cfg0.win 3).blk t).view.set ↔ ∀ a : Fin 2, win0_3.index t a * S1024x20.size a ≤ (i a).val ∧ (i a).val < win0_3.index t a * S1024x20.size a + S1024x20.size a := by
  show i ∈ ((View.whole main_v2).slice (win0_3.rect t)).set ↔ _
  rw [View.set_slice_whole, Rect.mem_set_unit]
  exact Iff.rfl

/-- The result array after the eight steps: row `n` is written by step `n / 1024`, so every entry is covered. -/
theorem final (c : Dev nD) :
    (dats m 0 c).arrAt 3 cfg0.N = cosArr (R := 8192) (V m c main_v0) (V m c main_v1) (V m c main_arg2) :=
  (dats m 0 c).arrAt_eq_of_cover 3 _ (fun t _ => flushed_eq m c t) fun i => by
    have hi0 : (i 0).val < 8192 := (i 0).isLt
    have hi1 : (i 1).val < 20 := (i 1).isLt
    have hN : cfg0.N = 8 := N_0
    have hq : (i 0).val / 1024 < cfg0.N := by rw [hN]; omega
    obtain ⟨-, -, -, -, -, -, e6, e7⟩ := idx_facts ⟨(i 0).val / 1024, hq⟩
    refine ⟨⟨(i 0).val / 1024, hq⟩, flush0_3 _, ?_⟩
    rw [mem_blk]
    intro a
    match a with
    | ⟨0, _⟩ =>
      show win0_3.index ⟨(i 0).val / 1024, hq⟩ (0 : Fin 2) * 1024 ≤ (i 0).val ∧ (i 0).val < win0_3.index ⟨(i 0).val / 1024, hq⟩ (0 : Fin 2) * 1024 + 1024
      rw [e6]; show (i 0).val / 1024 * 1024 ≤ (i 0).val ∧ (i 0).val < (i 0).val / 1024 * 1024 + 1024; omega
    | ⟨1, _⟩ =>
      show win0_3.index ⟨(i 0).val / 1024, hq⟩ (1 : Fin 2) * 20 ≤ (i 1).val ∧ (i 1).val < win0_3.index ⟨(i 0).val / 1024, hq⟩ (1 : Fin 2) * 20 + 20
      rw [e7]; omega

/-- The first operand as the grid finds it: the argument flattened to 8192 rows. -/
theorem V_main_v0 (c : Dev nD) :
    (V m c main_v0 : S8192x768.Idx → EReal)
      = shapeCast S8192x768 (m ((c : Thread nD τ).loc main_arg0)) shapeCasts_S16x512x768_S8192x768 := by
  show StableHlo.after hostOps0 (fun b => m (c, b)) (Proc.devRef .tc main_v0) = _
  after_results
  rfl

/-- The second operand likewise. -/
theorem V_main_v1 (c : Dev nD) :
    (V m c main_v1 : S8192x768.Idx → EReal)
      = shapeCast S8192x768 (m ((c : Thread nD τ).loc main_arg1)) shapeCasts_S16x512x768_S8192x768 := by
  show StableHlo.after hostOps0 (fun b => m (c, b)) (Proc.devRef .tc main_v1) = _
  after_results
  rfl

/-- The 8192 × 20 array after the steps, in terms of the program's arguments. -/
theorem final_args (c : Dev nD) :
    (dats m 0 c).arrAt 3 cfg0.N = cosArr (R := 8192)
      (shapeCast S8192x768 (m ((c : Thread nD τ).loc main_arg0)) shapeCasts_S16x512x768_S8192x768)
      (shapeCast S8192x768 (m ((c : Thread nD τ).loc main_arg1)) shapeCasts_S16x512x768_S8192x768)
      (m ((c : Thread nD τ).loc main_arg2)) := by
  rw [final, V_main_v0, V_main_v1, V_main_arg2]

/-- The program's result: the 8192 × 20 array the steps wrote, folded back to [16, 512, 20] — the weighted cosine
    of the arguments in their own layout. -/
theorem result_eq (c : Dev nD) :
    Pipeline.afterTail₀ cfgs (dats m) 0 (V0 m) [hostOps1] c main_v3
      = cosFull shapeCasts_S16x512x768_S8192x768 shapeCasts_S8192x20_S16x512x20
          (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  exact congrArg (fun v => shapeCast S16x512x20 v shapeCasts_S8192x20_S16x512x20)
    ((Pipeline.withArrays_arr spec0 launch0.win.arr_inj c (V0 m c) (fun w => (dats m 0 c).arrAt w (cfgs 0).N) 3).trans (final_args m c))

/-- THE RUN, READ: every weakly fair execution of the kernel program ends with its result at the weighted cosine of
    its arguments and the arguments as they were. -/
theorem run : θ_run defs (onTc (τ := τ) (main (F := Ideal))) ⟨m, fun _ => 0, ρ⟩ fun r => ∀ c : Dev nD,
      r.2.mem ((c.tc : Thread nD τ).loc main_v3)
        = cosFull shapeCasts_S16x512x768_S8192x768 shapeCasts_S8192x20_S16x512x20
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c)))⟩)
    (run_main m ρ)

end Cert.KernelIdeal.CosRun

end
-- ==== Proof.CosRef.lean ====
/-
  The reference, read over the extended reals.

  The reference flattens the two operands to [8192, 768], squares the weights, forms the three elementwise products
  r·m, r·r, m·m, contracts each with the squared weights along the 768 columns, and combines the three results
  entry by entry: square roots of the two self-products floored at ε, their product, the quotient. Entry `(n, p)` is therefore the
  weighted cosine `cosRow` of row `n` of the flattened operands under row `p` of the weights.
-/
import proofs.«410744_j1580547972833_3_alg».proof.Proof.Gen.ReferenceIdeal.Read
import proofs.«410744_j1580547972833_3_alg».proof.Proof.CosSpec

noncomputable section

namespace Cert.ReferenceIdeal.CosRef

open Cert.ReferenceIdeal Cert.ReferenceIdeal.Read Idealize.ShloMosaic Idealize.ShloMosaic.ValueIdx Cert.CosSim

/-- The 8192 × 20 quotient the reference forms before folding it back to three axes is the weighted cosine of the
    flattened operands. -/
theorem quotient_eq (x0 x1 : (⟨S16x512x768, .f32⟩ : BufTy).Contents (Elt Ideal)) (x2 : (⟨S20x768, .f32⟩ : BufTy).Contents (Elt Ideal)) :
    val_main_v16 (F := Ideal) x0 x1 x2
      = cosArr (R := 8192) (val_main_v0 (F := Ideal) x0) (val_main_v1 (F := Ideal) x1) x2 := by
  funext i
  obtain ⟨n, p, rfl⟩ : ∃ (n : Fin 8192) (p : Fin 20), i = ix2 n p := ⟨i 0, i 1, eq_ix2 i⟩
  have l4 : ∀ k : Fin 768, lidx_main_v4 (ix2 n p) k = ix2 n k := fun k => funext fun a => by
    match a with
    | ⟨0, _⟩ => rfl
    | ⟨1, _⟩ => rfl
  have r4 : ∀ k : Fin 768, ridx_main_v4 (ix2 n p) k = ix2 p k := fun k => funext fun a => by
    match a with
    | ⟨0, _⟩ => rfl
    | ⟨1, _⟩ => rfl
  have l6 : ∀ k : Fin 768, lidx_main_v6 (ix2 n p) k = ix2 n k := fun k => funext fun a => by
    match a with
    | ⟨0, _⟩ => rfl
    | ⟨1, _⟩ => rfl
  have r6 : ∀ k : Fin 768, ridx_main_v6 (ix2 n p) k = ix2 p k := fun k => funext fun a => by
    match a with
    | ⟨0, _⟩ => rfl
    | ⟨1, _⟩ => rfl
  have l9 : ∀ k : Fin 768, lidx_main_v9 (ix2 n p) k = ix2 n k := fun k => funext fun a => by
    match a with
    | ⟨0, _⟩ => rfl
    | ⟨1, _⟩ => rfl
  have r9 : ∀ k : Fin 768, ridx_main_v9 (ix2 n p) k = ix2 p k := fun k => funext fun a => by
    match a with
    | ⟨0, _⟩ => rfl
    | ⟨1, _⟩ => rfl
  rw [val_main_v16_apply, val_main_v4_apply, val_main_v15_apply, val_main_v12_apply, val_main_v14_apply,
    val_main_v7_apply, val_main_v10_apply, val_main_v6_apply, val_main_v9_apply, val_main_v11_apply, val_main_v13_apply]
  simp only [l4, r4, l6, r6, l9, r9, val_main_v3_apply, val_main_v5_apply, val_main_v8_apply, val_main_v2_apply,
    val_main_cst_apply, val_main_cst_0_apply]
  rfl

/-- The reference's result: that quotient folded back to [16, 512, 20] — the weighted cosine of the arguments in
    their own layout. -/
theorem result_eq (x0 x1 : (⟨S16x512x768, .f32⟩ : BufTy).Contents (Elt Ideal)) (x2 : (⟨S20x768, .f32⟩ : BufTy).Contents (Elt Ideal)) :
    val_main_v17 (F := Ideal) x0 x1 x2
      = cosFull Facts₀.shapeCasts_S16x512x768_S8192x768 Facts₀.shapeCasts_S8192x20_S16x512x20 x0 x1 x2 := by
  unfold val_main_v17
  rw [quotient_eq]
  rfl

end Cert.ReferenceIdeal.CosRef

end
-- ==== Proof.lean ====
/-
  Multi-perspective weighted cosine similarity: the tiled kernel and the whole-array reference are one function
  over the extended reals.

  For row `n` of the two [8192, 768] flattened operands r, m and row `p` of the [20, 768] weights w, both programs
  compute
      out[n, p] = Σ_d (r·m)[n,d]·w[p,d]²  /  ( max(√Σ_d (r·r)[n,d]·w[p,d]², ε) · max(√Σ_d (m·m)[n,d]·w[p,d]², ε) ).
  The kernel does it 1024 rows at a time, narrowing the three products to the matrix unit's input format before
  each contraction; read exactly, the narrowing is the identity and a contraction into a zero accumulator is the
  plain sum, so each grid step writes a block of the same whole-array function (`Cert.CosSim.cosArr`) and the
  eight blocks tile the result. The reference contracts the whole arrays at once. No rearrangement of a sum or a
  product is needed — the two sides agree term by term — so the finiteness of the inputs is never used.

  The idealization rewrote nothing, so the kernel's idealized print is its own text read exactly and `preserves`
  is trivially true; the three frames are the generated ones.
-/
import proofs.«410744_j1580547972833_3_alg».proof.Defs
import proofs.«410744_j1580547972833_3_alg».proof.Proof.Gen.Kernel
import proofs.«410744_j1580547972833_3_alg».proof.Proof.Gen.Kernel.Skeleton
import proofs.«410744_j1580547972833_3_alg».proof.Proof.Gen.Kernel.Launch
import proofs.«410744_j1580547972833_3_alg».proof.Proof.Gen.Kernel.Points
import proofs.«410744_j1580547972833_3_alg».proof.Proof.Gen.Kernel.Frame
import proofs.«410744_j1580547972833_3_alg».proof.Proof.Gen.KernelIdeal
import proofs.«410744_j1580547972833_3_alg».proof.Proof.Gen.KernelIdeal.Skeleton
import proofs.«410744_j1580547972833_3_alg».proof.Proof.Gen.KernelIdeal.Launch
import proofs.«410744_j1580547972833_3_alg».proof.Proof.Gen.KernelIdeal.Points
import proofs.«410744_j1580547972833_3_alg».proof.Proof.Gen.KernelIdeal.Frame
import proofs.«410744_j1580547972833_3_alg».proof.Proof.Gen.ReferenceIdeal
import proofs.«410744_j1580547972833_3_alg».proof.Proof.Gen.ReferenceIdeal.Run
import proofs.«410744_j1580547972833_3_alg».proof.Proof.Gen.ReferenceIdeal.Read
import proofs.«410744_j1580547972833_3_alg».proof.Proof.Gen.Pre_finite_inputs
import proofs.«410744_j1580547972833_3_alg».proof.Proof.CosSpec
import proofs.«410744_j1580547972833_3_alg».proof.Proof.CosBlock
import proofs.«410744_j1580547972833_3_alg».proof.Proof.CosRun
import proofs.«410744_j1580547972833_3_alg».proof.Proof.CosRef
import Idealize.ShloMosaic.Adequacy
import Idealize.ShloMosaic.Init

noncomputable section

namespace Cert.Proof

open Idealize.ShloMosaic Idealize.SL.Sem Cert.CosSim

/-- The word-level kernel runs, faults nowhere and leaves its arguments alone. -/
theorem frame_kernel : Cert.frame_Kernel := fun m ρ _ => Cert.Kernel.Gen.frame m ρ

/-- So does the kernel read exactly. -/
theorem frame_kernelIdeal : Cert.frame_KernelIdeal := fun m ρ _ => Cert.KernelIdeal.Gen.frame m ρ

/-- The reference is a straight line of whole-array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the weighted cosine `cosFull` of those
    arguments as their result. -/
theorem algebraic : Cert.algebraic_KernelIdeal_ReferenceIdeal := by
  intro m ρ m' ρ' _ hagree
  refine ⟨fun c => cosFull Cert.KernelIdeal.Facts₀.shapeCasts_S16x512x768_S8192x768 Cert.KernelIdeal.Facts₀.shapeCasts_S8192x20_S16x512x20
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.CosRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.CosRef.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
